-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S512x512 .f32) (main_arg3 : FVec F S512 .f32) (main_arg4 : FVec F S512x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S2000x512 : Shape := ⟨2, ![2000, 512]⟩
abbrev S2000x256 : Shape := ⟨2, ![2000, 256]⟩
abbrev S1x320000x256 : Shape := ⟨3, ![1, 320000, 256]⟩

abbrev nBuf : Space → Nat
  | .hbm => 33
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x512, .f32⟩
  | .hbm, ⟨29, _⟩ => ⟨S1x512, .f32⟩
  | .hbm, ⟨30, _⟩ => ⟨S1x256, .f32⟩
  | .hbm, ⟨31, _⟩ => ⟨S320000x256, .f32⟩
  | .hbm, ⟨32, _⟩ => ⟨S1x320000x256, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  shapeCasts_S512_S1x512 : S512.ShapeCasts S1x512
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S320000x256_S1x320000x256 : S320000x256.ShapeCasts S1x320000x256
  gather_S10000x256_S320000x1_S320000x256_1_0_n_n_0_1_1256_wf : GatherDims.WF S10000x256 S320000x1 S320000x256 [1] [0] [] [0] [] 1 ![1, 256]
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S320000x512.size a
  hwx0_0 : ∀ i : grid0.Coords, EltTy.bits .f32 = 32 ∨ (Rect.block (s := S320000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S320000x256.size a
  hwx0_5 : ∀ i : grid0.Coords, EltTy.bits .f32 = 32 ∨ (Rect.block (s := S320000x256) S2000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v18) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S1x320000x256 : Shape := ⟨3, ![1, 320000, 256]⟩

abbrev nBuf : Space → Nat
  | .hbm => 41
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x512, .f32⟩
  | .hbm, ⟨29, _⟩ => ⟨S320000x512, .f32⟩
  | .hbm, ⟨30, _⟩ => ⟨S1x512, .f32⟩
  | .hbm, ⟨31, _⟩ => ⟨S320000x512, .f32⟩
  | .hbm, ⟨32, _⟩ => ⟨S320000x512, .f32⟩
  | .hbm, ⟨33, _⟩ => ⟨S_, .f32⟩
  | .hbm, ⟨34, _⟩ => ⟨S320000x512, .f32⟩
  | .hbm, ⟨35, _⟩ => ⟨S320000x512, .f32⟩
  | .hbm, ⟨36, _⟩ => ⟨S320000x256, .f32⟩
  | .hbm, ⟨37, _⟩ => ⟨S1x256, .f32⟩
  | .hbm, ⟨38, _⟩ => ⟨S320000x256, .f32⟩
  | .hbm, ⟨39, _⟩ => ⟨S320000x256, .f32⟩
  | .hbm, ⟨40, _⟩ => ⟨S1x320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  shapeCasts_S320000x256_S1x320000x256 : S320000x256.ShapeCasts S1x320000x256
  gather_S10000x256_S320000x1_S320000x256_1_0_n_n_0_1_1256_wf : GatherDims.WF S10000x256 S320000x1 S320000x256 [1] [0] [] [0] [] 1 ![1, 256]
  dot_S320000x512_S512x512_S320000x512_1_0_0_1_n_n_wf : DotDims.WF S320000x512 S512x512 S320000x512 [1] [0] [0] [1] [] []
  dot_S320000x512_S512x256_S320000x256_1_0_0_1_n_n_wf : DotDims.WF S320000x512 S512x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf

class Facts : Prop extends Facts₀ where

variable [Facts]
-- ==== Proof.EdgeMlp.lean ====
/-
  The edge network as one function, index by index, over the extended reals.

  For an array `ef` of 320000 edge features (each row the two gathered node rows side by side, 512 entries), the
  two weight matrices and the two biases, the hidden activation of edge `r` at unit `k` is
      max (∑ j, ef[r, j] · w1[j, k] + b1[k], 0)
  and the output of edge `r` at channel `q` is
      ∑ k, hidden[r, k] · w2[k, q] + b2[q].
  Both programs compute exactly this: the kernel block by block over 2000 edges at a time, the reference on
  the whole arrays; no law of arithmetic beyond reading each operation at an index is needed to see it, so the
  inputs' finiteness is never used.
-/
import Idealize.ShloMosaic.PureOps.Ideal
import Idealize.ShloMosaic.Lib.ValueIdx

noncomputable section

open scoped BigOperators

namespace Cert.EdgeMlp

open Idealize.ShloMosaic Idealize.ShloMosaic.ValueIdx

/-- One row of the first layer after the rectifier: `max (∑ j, a j · w1[j, k] + b1[k], 0)` for a row `a` of 512
    features. Stated for a row so that it serves a block of edges and the whole edge array alike. -/
def hiddenRow (a : Fin 512 → EReal) (w1 : (⟨2, ![512, 512]⟩ : Shape).Idx → EReal)
    (b1 : Fin 512 → EReal) (k : Fin 512) : EReal :=
  max ((∑ j : Fin 512, a j * w1 (ix2 j k)) + b1 k) 0

/-- One row of the second layer: `∑ k, hiddenRow a k · w2[k, q] + b2[q]`. -/
def outRow (a : Fin 512 → EReal) (w1 : (⟨2, ![512, 512]⟩ : Shape).Idx → EReal) (b1 : Fin 512 → EReal)
    (w2 : (⟨2, ![512, 256]⟩ : Shape).Idx → EReal) (b2 : Fin 256 → EReal) (q : Fin 256) : EReal :=
  (∑ k : Fin 512, hiddenRow a w1 b1 k * w2 (ix2 k q)) + b2 q

/-- The output of edge `r` at channel `q`: `outRow` of row `r` of the edge features. -/
def outAt (ef : (⟨2, ![320000, 512]⟩ : Shape).Idx → EReal) (w1 : (⟨2, ![512, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (r : Fin 320000) (q : Fin 256) : EReal :=
  outRow (fun j => ef (ix2 r j)) w1 (fun k => b1 (ix1 k)) w2 (fun c => b2 (ix1 c)) q

/-- The whole output array [320000, 256]. -/
def out (ef : (⟨2, ![320000, 512]⟩ : Shape).Idx → EReal) (w1 : (⟨2, ![512, 512]⟩ : Shape).Idx → EReal)
    (b1 : (⟨1, ![512]⟩ : Shape).Idx → EReal) (w2 : (⟨2, ![512, 256]⟩ : Shape).Idx → EReal)
    (b2 : (⟨1, ![256]⟩ : Shape).Idx → EReal) : (⟨2, ![320000, 256]⟩ : Shape).Idx → EReal := fun i =>
  outAt ef w1 b1 w2 b2 (i 0) (i 1)

/-- The array at the index of coordinates (r, q). -/
theorem out_ix2 (ef : (⟨2, ![320000, 512]⟩ : Shape).Idx → EReal) (w1 : (⟨2, ![512, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (r : Fin 320000) (q : Fin 256) :
    out ef w1 b1 w2 b2 (ix2 r q) = outAt ef w1 b1 w2 b2 r q := rfl

end Cert.EdgeMlp

end
-- ==== Proof.BodyValue.lean ====
/-
  What the kernel body stores, read at one element of its output block.

  At a grid point the body holds a block of 2000 edges' features, the two weight matrices whole and the two
  biases as single rows. Its one store writes, at (edge p of the block, channel q),
      ∑ k, max (∑ j, x[p, j] · w1[j, k] + b1[0, k], 0) · w2[k, q] + b2[0, q]:
  the two narrowings to the 16-bit format are the identity on extended reals, each product into a zero
  accumulator is the plain sum over the contracted entry, and the bias rows are broadcast along the edges.
-/
import proofs.«100078_j66692252172957_1_alg».proof.Proof.Gen.KernelIdeal.Skeleton
import proofs.«100078_j66692252172957_1_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- Axis by axis, where the 1 product's operands are read: the left at (row of the output, contracted
    entry), the right at (contracted entry, column of the output). -/
theorem lhs1_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs1_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs1_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs1_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The 1 product into a zero accumulator, read at (p, c): the sum over the 512 contracted entries. -/
theorem mm1_apply (l : FVec Ideal S2000x512 .bf16) (r : FVec Ideal S512x512 .bf16) (p : Fin 2000) (c : Fin 512) :
    matmul dot_S2000x512_S512x512_S2000x512_1_0_0_1_n_n none l r (constant (F := Ideal) S2000x512 .f32 0x00000000#32) (ix2 p c)
      = ∑ k : Fin 512, l (ix2 p k) * r (ix2 k c) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p c) ((ValueIdx.contrEquiv1 dot_S2000x512_S512x512_S2000x512_1_0_0_1_n_n 512 rfl rfl).symm k) = ix2 p k := funext fun a => Fin.ext (by
    match a with
    | ⟨0, _⟩ => exact lhs1_0 _ _
    | ⟨1, _⟩ => exact (lhs1_1 _ _).trans hk)
  have er : dot_S2000x512_S512x512_S2000x512_1_0_0_1_n_n.rhsIdx (ix2 p c) ((ValueIdx.contrEquiv1 dot_S2000x512_S512x512_S2000x512_1_0_0_1_n_n 512 rfl rfl).symm k) = ix2 k c := funext fun a => Fin.ext (by
    match a with
    | ⟨0, _⟩ => exact (rhs1_0 _ _).trans hk
    | ⟨1, _⟩ => exact rhs1_1 _ _)
  rw [el, er]

/-- Axis by axis, where the 2 product's operands are read: the left at (row of the output, contracted
    entry), the right at (contracted entry, column of the output). -/
theorem lhs2_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs2_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs2_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs2_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The 2 product into a zero accumulator, read at (p, c): the sum over the 512 contracted entries. -/
theorem mm2_apply (l : FVec Ideal S2000x512 .bf16) (r : FVec Ideal S512x256 .bf16) (p : Fin 2000) (c : Fin 256) :
    matmul dot_S2000x512_S512x256_S2000x256_1_0_0_1_n_n none l r (constant (F := Ideal) S2000x256 .f32 0x00000000#32) (ix2 p c)
      = ∑ k : Fin 512, l (ix2 p k) * r (ix2 k c) := by
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx (ix2 p c) ((ValueIdx.contrEquiv1 dot_S2000x512_S512x256_S2000x256_1_0_0_1_n_n 512 rfl rfl).symm k) = ix2 p k := funext fun a => Fin.ext (by
    match a with
    | ⟨0, _⟩ => exact lhs2_0 _ _
    | ⟨1, _⟩ => exact (lhs2_1 _ _).trans hk)
  have er : dot_S2000x512_S512x256_S2000x256_1_0_0_1_n_n.rhsIdx (ix2 p c) ((ValueIdx.contrEquiv1 dot_S2000x512_S512x256_S2000x256_1_0_0_1_n_n 512 rfl rfl).symm k) = ix2 k c := funext fun a => Fin.ext (by
    match a with
    | ⟨0, _⟩ => exact (rhs2_0 _ _).trans hk
    | ⟨1, _⟩ => exact rhs2_1 _ _)
  rw [el, er]

/-- The hidden activation the body forms, at (edge p of the block, unit u). -/
theorem hidden_apply (v0 : FVec Ideal S2000x512 .f32) (v3 : FVec Ideal S512x512 .f32) (v6 : FVec Ideal S1x512 .f32)
    (p : Fin 2000) (u : Fin 512) :
    maximumf (addf (matmul dot_S2000x512_S512x512_S2000x512_1_0_0_1_n_n none (truncf .bf16 v0 bitsLt_bf16_f32) (truncf .bf16 v3 bitsLt_bf16_f32) (constant (F := Ideal) S2000x512 .f32 0x00000000#32))
        (broadcastTo S2000x512 v6 broadcasts_S1x512_S2000x512))
      (broadcast S2000x512 (Scalar.ofBits (F := Ideal) .f32 0x00000000#32)) (ix2 p u)
      = Cert.EdgeMlp.hiddenRow (fun j => v0 (ix2 p j)) v3 (fun k => v6 (ix2 (0 : Fin 1) k)) u := by
  rw [maximumf_apply, addf_apply, mm1_apply, broadcastTo_1b_ab_apply, broadcast_apply]
  unfold Cert.EdgeMlp.hiddenRow
  refine congrArg₂ max (congrArg₂ (· + ·) (Finset.sum_congr rfl fun j _ => ?_) rfl) Ideal.ofBits_zero_f32
  rfl

/-- The body's stored value at (edge p of the block, channel q) is the edge network's row function of row p of
    the block. -/
theorem pay_apply (v0 : FVec Ideal S2000x512 .f32) (v3 : FVec Ideal S512x512 .f32) (v6 : FVec Ideal S1x512 .f32)
    (v13 : FVec Ideal S512x256 .f32) (v16 : FVec Ideal S1x256 .f32) (p : Fin 2000) (q : Fin 256) :
    k0_pay1 (F := Ideal) v0 v3 v6 v13 v16 (ix2 p q)
      = Cert.EdgeMlp.outRow (fun j => v0 (ix2 p j)) v3 (fun k => v6 (ix2 (0 : Fin 1) k)) v13 (fun c => v16 (ix2 (0 : Fin 1) c)) q := by
  unfold k0_pay1
  rw [addf_apply, mm2_apply, broadcastTo_1b_ab_apply]
  simp only [shapeCast_self]
  unfold Cert.EdgeMlp.outRow
  refine congrArg₂ (· + ·) (Finset.sum_congr rfl fun k _ => ?_) rfl
  rw [truncf_apply, truncf_apply, hidden_apply]

end Cert.KernelIdeal.BodyValue

end
-- ==== Proof.KernelArray.lean ====
/-
  The kernel's run, read: what its result array holds after the last grid point.

  The grid has 160 points; point `t` is given rows 2000·t … 2000·t + 1999 of the edge features and the weights
  and bias rows whole, and writes back rows 2000·t … 2000·t + 1999 of the output. By the body's value at an
  element (`BodyValue.pay_apply`) the block point `t` writes back is block `t` of the edge network of the arrays
  the region finds; the 160 blocks tile the output array, so the array ends holding that function whole; the one
  host operation after the region reshapes it to [1, 320000, 256].
-/
import proofs.«100078_j66692252172957_1_alg».proof.Proof.Gen.KernelIdeal.Frame
import proofs.«100078_j66692252172957_1_alg».proof.Proof.BodyValue
import Idealize.ShloMosaic.Lib.Pipeline.Value
import Idealize.ShloMosaic.Lib.StableHlo.Run
import Idealize.ShloMosaic.Lib.Tactic

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, and the blocks a point is given, at their literal types -/

abbrev efArr (c : Dev nD) : FVec Ideal S320000x512 .f32 := V m c main_v18
abbrev w1Arr (c : Dev nD) : FVec Ideal S512x512 .f32 := V m c main_arg2
abbrev b1Arr (c : Dev nD) : FVec Ideal S1x512 .f32 := V m c main_v19
abbrev w2Arr (c : Dev nD) : FVec Ideal S512x256 .f32 := V m c main_arg4
abbrev b2Arr (c : Dev nD) : FVec Ideal S1x256 .f32 := V m c main_v20

abbrev efBlk (c : Dev nD) (t : Fin cfg0.N) : FVec Ideal S2000x512 .f32 := iblk m c 0 t
abbrev w1Blk (c : Dev nD) (t : Fin cfg0.N) : FVec Ideal S512x512 .f32 := iblk m c 1 t
abbrev b1Blk (c : Dev nD) (t : Fin cfg0.N) : FVec Ideal S1x512 .f32 := iblk m c 2 t
abbrev w2Blk (c : Dev nD) (t : Fin cfg0.N) : FVec Ideal S512x256 .f32 := iblk m c 3 t
abbrev b2Blk (c : Dev nD) (t : Fin cfg0.N) : FVec Ideal S1x256 .f32 := iblk m c 4 t

/-- The edge network of the arrays the region finds: the kernel's result array, whole. -/
def result (c : Dev nD) : FVec Ideal S320000x256 .f32 :=
  Cert.EdgeMlp.out (efArr m c) (w1Arr m c) (fun i => b1Arr m c (ix2 (0 : Fin 1) (i 0))) (w2Arr m c)
    (fun i => b2Arr m c (ix2 (0 : Fin 1) (i 0)))

/-! ## Where each window's block sits, decided over the 160 points -/

/-- The edge features' and the output's block index is the point itself on the rows, zero on the columns; the
    weights' and biases' blocks are always the one at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `2000·t + p` of the edge arrays, for a point `t` and a row `p` of its block. -/
def rowOf (t : Fin cfg0.N) (p : Fin 2000) : Fin 320000 :=
  ⟨2000 * t.val + p.val, by have h : t.val < 160 := lt_of_lt_of_eq t.isLt N_0
                            have := p.isLt; omega⟩

/-- The edge-feature block at point `t` is rows `2000·t …` of the edge features. -/
theorem efBlk_apply (c : Dev nD) (t : Fin cfg0.N) (p : Fin 2000) (j : Fin 512) :
    efBlk m c t (ix2 p j) = efArr m c (ix2 (rowOf t p) j) := by
  obtain ⟨e0, e1, -⟩ := idx_facts t
  show V m c main_v18 (((cfg0.win 0).blk t).view.emb (ix2 p j)) = V m c main_v18 (ix2 (rowOf t p) j)
  congr 1
  funext a; apply Fin.ext
  match a with
  | ⟨0, _⟩ => show win0_0.index t (0 : Fin 2) * 2000 + 1 * p.val = 2000 * t.val + p.val; rw [e0]; omega
  | ⟨1, _⟩ => show win0_0.index t (1 : Fin 2) * 512 + 1 * j.val = j.val; rw [e1]; omega

/-- The first weight matrix is given whole at every point. -/
theorem w1Blk_eq (c : Dev nD) (t : Fin cfg0.N) : w1Blk m c t = w1Arr m c := by
  obtain ⟨-, -, e0, e1, -⟩ := idx_facts t
  funext i
  show V m c main_arg2 (((cfg0.win 1).blk t).view.emb i) = V m c main_arg2 i
  congr 1
  funext a; apply Fin.ext
  match a with
  | ⟨0, _⟩ => show win0_1.index t (0 : Fin 2) * 512 + 1 * (i 0).val = (i 0).val; rw [e0]; omega
  | ⟨1, _⟩ => show win0_1.index t (1 : Fin 2) * 512 + 1 * (i 1).val = (i 1).val; rw [e1]; omega

/-- The first bias row likewise. -/
theorem b1Blk_eq (c : Dev nD) (t : Fin cfg0.N) : b1Blk m c t = b1Arr m c := by
  obtain ⟨-, -, -, -, e0, e1, -⟩ := idx_facts t
  funext i
  show V m c main_v19 (((cfg0.win 2).blk t).view.emb i) = V m c main_v19 i
  congr 1
  funext a; apply Fin.ext
  match a with
  | ⟨0, _⟩ => show win0_2.index t (0 : Fin 2) * 1 + 1 * (i 0).val = (i 0).val; rw [e0]; omega
  | ⟨1, _⟩ => show win0_2.index t (1 : Fin 2) * 512 + 1 * (i 1).val = (i 1).val; rw [e1]; omega

/-- The second weight matrix likewise. -/
theorem w2Blk_eq (c : Dev nD) (t : Fin cfg0.N) : w2Blk m c t = w2Arr m c := by
  obtain ⟨-, -, -, -, -, -, e0, e1, -⟩ := idx_facts t
  funext i
  show V m c main_arg4 (((cfg0.win 3).blk t).view.emb i) = V m c main_arg4 i
  congr 1
  funext a; apply Fin.ext
  match a with
  | ⟨0, _⟩ => show win0_3.index t (0 : Fin 2) * 512 + 1 * (i 0).val = (i 0).val; rw [e0]; omega
  | ⟨1, _⟩ => show win0_3.index t (1 : Fin 2) * 256 + 1 * (i 1).val = (i 1).val; rw [e1]; omega

/-- The second bias row likewise. -/
theorem b2Blk_eq (c : Dev nD) (t : Fin cfg0.N) : b2Blk m c t = b2Arr m c := by
  obtain ⟨-, -, -, -, -, -, -, -, e0, e1, -⟩ := idx_facts t
  funext i
  show V m c main_v20 (((cfg0.win 4).blk t).view.emb i) = V m c main_v20 i
  congr 1
  funext a; apply Fin.ext
  match a with
  | ⟨0, _⟩ => show win0_4.index t (0 : Fin 2) * 1 + 1 * (i 0).val = (i 0).val; rw [e0]; omega
  | ⟨1, _⟩ => show win0_4.index t (1 : Fin 2) * 256 + 1 * (i 1).val = (i 1).val; rw [e1]; omega

/-- Element (p, q) of the output's block at point `t` sits at (2000·t + p, q) of the output array. -/
theorem out_emb (t : Fin cfg0.N) (p : Fin 2000) (q : Fin 256) :
    ((cfg0.win 5).blk t).view.emb (ix2 p q) = (ix2 (rowOf t p) q : S320000x256.Idx) := by
  obtain ⟨-, -, -, -, -, -, -, -, -, -, e0, e1⟩ := idx_facts t
  funext a; apply Fin.ext
  match a with
  | ⟨0, _⟩ => show win0_5.index t (0 : Fin 2) * 2000 + 1 * p.val = 2000 * t.val + p.val; rw [e0]; omega
  | ⟨1, _⟩ => show win0_5.index t (1 : Fin 2) * 256 + 1 * q.val = q.val; rw [e1]; omega

/-! ## What a point writes back -/

/-- What point `t` writes back is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S2000x512) hz, View.ld_unit_zero (S := S512x512) hz, View.ld_unit_zero (S := S1x512) hz,
    View.ld_unit_zero (S := S512x256) hz, View.ld_unit_zero (S := S1x256) hz]
  funext y
  obtain ⟨p, q, rfl⟩ : ∃ (p : Fin 2000) (q : Fin 256), y = ix2 p q := ⟨y 0, y 1, eq_ix2 y⟩
  show k0_pay1 (F := Ideal) (efBlk m c t) (w1Blk m c t) (b1Blk m c t) (w2Blk m c t) (b2Blk m c t) (ix2 p q)
    = result m c (((cfg0.win 5).blk t).view.emb (ix2 p q))
  rw [out_emb, Cert.KernelIdeal.BodyValue.pay_apply (efBlk m c t) (w1Blk m c t) (b1Blk m c t) (w2Blk m c t) (b2Blk m c t) p q,
    w1Blk_eq, b1Blk_eq, w2Blk_eq, b2Blk_eq, (funext fun j => efBlk_apply m c t p j : (fun j => efBlk m c t (ix2 p j)) = fun j => efArr m c (ix2 (rowOf t p) j))]
  rfl

/-! ## The blocks tile the output array -/

/-- An index of the output array is in point `t`'s block iff each coordinate is in the block's range on its axis. -/
theorem mem_blk (t : Fin cfg0.N) (i : S320000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v21).slice (win0_5.rect t)).set ↔ _
  rw [View.set_slice_whole, Rect.mem_set_unit]
  exact Iff.rfl

/-- Row `r` of the output array is in the block of point `r / 2000`. -/
theorem cover (i : S320000x256.Idx) : ∃ t : Fin cfg0.N, (cfg0.win 5).flush t = true ∧ i ∈ ((cfg0.win 5).blk t).view.set := by
  have hi0 : (i 0).val < 320000 := (i 0).isLt
  have hi1 : (i 1).val < 256 := (i 1).isLt
  have hN : cfg0.N = 160 := N_0
  let t : Fin cfg0.N := ⟨(i 0).val / 2000, by rw [hN]; omega⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- So the output array ends holding `result`. -/
theorem final (c : Dev nD) : (dats m 0 c).arrAt 5 cfg0.N = result m c :=
  (dats m 0 c).arrAt_eq_of_cover 5 (result m c) (fun t _ => flushed_eq m c t) cover

end Cert.KernelIdeal.ArrayValue

end
-- ==== Proof.KernelRun.lean ====
/-
  The kernel's whole run as a function of its arguments.

  Before the region the host gathers, for every edge, the rows of its two end nodes (a negative node index
  counted from the end, as array indexing does) and lays them side by side: `edgeFeatures`. It also reshapes the
  two biases to single rows. The weights reach the region as launched. So the region's result array is the edge
  network of `edgeFeatures` of the arguments, and the program's result is that array reshaped to
  [1, 320000, 256] by the one host operation after the region.
-/
import proofs.«100078_j66692252172957_1_alg».proof.Proof.KernelArray

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Row `which` of the edge list as node indices, a negative one counted from the end of the 10000 nodes. -/
def nodeIdx (x1 : (⟨S2x320000, .i32⟩ : BufTy).Contents (Elt Ideal)) (off : Fin 2 → Nat) (h : S2x320000.Slices off S1x320000) :
    (⟨S320000x1, .i32⟩ : BufTy).Contents (Elt Ideal) :=
  broadcastInDim S320000x1 ![0] bcast_S320000_S320000x1_0
    (select (cmpi .slt (shapeCast _ (extractStridedSlice S1x320000 off x1 h) shapeCasts_S1x320000_S320000) (broadcastInDim S320000 ![] bcast_S_S320000 (constantI S_ 32 0#32)))
      (addi (shapeCast _ (extractStridedSlice S1x320000 off x1 h) shapeCasts_S1x320000_S320000) (broadcastInDim S320000 ![] bcast_S_S320000 (constantI S_ 32 10000#32)))
      (shapeCast _ (extractStridedSlice S1x320000 off x1 h) shapeCasts_S1x320000_S320000))

/-- The edge features: for every edge the gathered rows of its start node and of its end node, side by side. -/
def edgeFeatures (x0 : (⟨S10000x256, .f32⟩ : BufTy).Contents (Elt Ideal)) (x1 : (⟨S2x320000, .i32⟩ : BufTy).Contents (Elt Ideal)) :
    (⟨S320000x512, .f32⟩ : BufTy).Contents (Elt Ideal) :=
  concatenate S320000x512 1
    [⟨S320000x256, Host.gather gather_S10000x256_S320000x1_S320000x256_1_0_n_n_0_1_1256 x0 (nodeIdx x1 ![0, 0] slices_S2x320000_S1x320000_0_0)⟩,
     ⟨S320000x256, Host.gather gather_S10000x256_S320000x1_S320000x256_1_0_n_n_0_1_1256 x0 (nodeIdx x1 ![1, 0] slices_S2x320000_S1x320000_1_0)⟩]
    concatenates_S320000x256_S320000x256_S320000x512_d1

/-- The region finds the edge features of the arguments. -/
theorem efArr_eq (c : Dev nD) : efArr m c = edgeFeatures (m ((c : Thread nD τ).loc main_arg0)) (m ((c : Thread nD τ).loc main_arg1)) := by
  show StableHlo.after hostOps0 (fun b => m (c, b)) (Proc.devRef .tc main_v18) = _
  after_results_simp
  rfl

/-- The region finds the first bias as a single row. -/
theorem b1Arr_eq (c : Dev nD) : b1Arr m c = shapeCast S1x512 (m ((c : Thread nD τ).loc main_arg3)) shapeCasts_S512_S1x512 := by
  show StableHlo.after hostOps0 (fun b => m (c, b)) (Proc.devRef .tc main_v19) = _
  after_results
  rfl

/-- The region finds the second bias as a single row. -/
theorem b2Arr_eq (c : Dev nD) : b2Arr m c = shapeCast S1x256 (m ((c : Thread nD τ).loc main_arg5)) shapeCasts_S256_S1x256 := by
  show StableHlo.after hostOps0 (fun b => m (c, b)) (Proc.devRef .tc main_v20) = _
  after_results
  rfl

/-- The bias rows read at their one row are the biases. -/
theorem b1_row (c : Dev nD) : (fun i : S512.Idx => b1Arr m c (ix2 (0 : Fin 1) (i 0))) = m ((c : Thread nD τ).loc main_arg3) := by
  funext i
  obtain ⟨k, rfl⟩ : ∃ k : Fin 512, i = ix1 k := ⟨i 0, eq_ix1 i⟩
  rw [b1Arr_eq]
  exact shapeCast_a_1a_apply _ _ (0 : Fin 1) k
theorem b2_row (c : Dev nD) : (fun i : S256.Idx => b2Arr m c (ix2 (0 : Fin 1) (i 0))) = m ((c : Thread nD τ).loc main_arg5) := by
  funext i
  obtain ⟨k, rfl⟩ : ∃ k : Fin 256, i = ix1 k := ⟨i 0, eq_ix1 i⟩
  rw [b2Arr_eq]
  exact shapeCast_a_1a_apply _ _ (0 : Fin 1) k

/-- The region's result array is the edge network of the arguments. -/
theorem result_eq (c : Dev nD) :
    result m c = Cert.EdgeMlp.out (edgeFeatures (m ((c : Thread nD τ).loc main_arg0)) (m ((c : Thread nD τ).loc main_arg1)))
      (m ((c : Thread nD τ).loc main_arg2)) (m ((c : Thread nD τ).loc main_arg3)) (m ((c : Thread nD τ).loc main_arg4)) (m ((c : Thread nD τ).loc main_arg5)) := by
  unfold result
  rw [b1_row, b2_row, efArr_eq]
  show Cert.EdgeMlp.out _ (V m c main_arg2) _ (V m c main_arg4) _ = _
  rw [V_main_arg2, V_main_arg4]

/-- The program's result: the region's result array reshaped by the host operation after the region. -/
theorem tail_eq (c : Dev nD) :
    Pipeline.afterTail₀ cfgs (dats m) 0 (V0 m) [hostOps1] c main_v22
      = shapeCast S1x320000x256 (result m c) shapeCasts_S320000x256_S1x320000x256 := by
  unfold Pipeline.afterTail₀
  show StableHlo.after hostOps1 _ (Proc.devRef .tc main_v22) = _
  after_results
  exact congrArg (fun v => shapeCast S1x320000x256 v shapeCasts_S320000x256_S1x320000x256)
    ((Pipeline.withArrays_arr spec0 launch0.win.arr_inj c _ _ 5).trans (final m c))

/-- The run, read: the result at the reshaped edge network of the arguments, the arguments unchanged. -/
theorem run : θ_run defs (onTc (τ := τ) (main (F := Ideal))) ⟨m, fun _ => 0, ρ⟩ fun r => ∀ c : Dev nD,
      r.2.mem ((c.tc : Thread nD τ).loc main_v22)
        = shapeCast S1x320000x256 (Cert.EdgeMlp.out (edgeFeatures (m ((c : Thread nD τ).loc main_arg0)) (m ((c : Thread nD τ).loc main_arg1)))
            (m ((c : Thread nD τ).loc main_arg2)) (m ((c : Thread nD τ).loc main_arg3)) (m ((c : Thread nD τ).loc main_arg4)) (m ((c : Thread nD τ).loc main_arg5)))
            shapeCasts_S320000x256_S1x320000x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v22 (Pipeline.mem_restRefs_of main_v22 (by decide) (by decide))).trans ((tail_eq m c).trans (by rw [result_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.ArrayValue

end
-- ==== Proof.RefIsEdgeMlp.lean ====
/-
  The reference's result before its last reshape is the edge network `EdgeMlp.out` of the gathered edge
  features: each of its operations read at an index (the two products as sums over the 512 contracted
  entries, the biases broadcast along the edges, the rectifier a maximum with zero).
-/
import proofs.«100078_j66692252172957_1_alg».proof.Proof.Gen.ReferenceIdeal.Read
import proofs.«100078_j66692252172957_1_alg».proof.Proof.EdgeMlp

noncomputable section

open scoped BigOperators

namespace Cert.ReferenceIdeal.RefValue

open Cert.ReferenceIdeal Cert.ReferenceIdeal.Read Idealize.ShloMosaic Idealize.ShloMosaic.ValueIdx

/-- The left operand of the first product is read at (edge, j), the right at (j, unit). -/
theorem lidx19 (r : Fin 320000) (u : Fin 512) (j : Fin 512) : lidx_main_v19 (ix2 r u) j = ix2 r j :=
  funext fun a => Fin.ext (by match a with | ⟨0, _⟩ => rfl | ⟨1, _⟩ => rfl)
theorem ridx19 (r : Fin 320000) (u : Fin 512) (j : Fin 512) : ridx_main_v19 (ix2 r u) j = ix2 j u :=
  funext fun a => Fin.ext (by match a with | ⟨0, _⟩ => rfl | ⟨1, _⟩ => rfl)
/-- The left operand of the second product is read at (edge, k), the right at (k, channel). -/
theorem lidx24 (r : Fin 320000) (q : Fin 256) (k : Fin 512) : lidx_main_v24 (ix2 r q) k = ix2 r k :=
  funext fun a => Fin.ext (by match a with | ⟨0, _⟩ => rfl | ⟨1, _⟩ => rfl)
theorem ridx24 (r : Fin 320000) (q : Fin 256) (k : Fin 512) : ridx_main_v24 (ix2 r q) k = ix2 k q :=
  funext fun a => Fin.ext (by match a with | ⟨0, _⟩ => rfl | ⟨1, _⟩ => rfl)
/-- The first bias, broadcast to [1, 512] and then along the edges, is read at its unit. -/
theorem bidx1 (r : Fin 320000) (u : Fin 512) : idx_main_v20 (idx_main_v21 (ix2 r u)) = ix1 u :=
  funext fun a => Fin.ext (by match a with | ⟨0, _⟩ => rfl)
/-- The second bias likewise at its channel. -/
theorem bidx2 (r : Fin 320000) (q : Fin 256) : idx_main_v25 (idx_main_v26 (ix2 r q)) = ix1 q :=
  funext fun a => Fin.ext (by match a with | ⟨0, _⟩ => rfl)

/-- The reference's hidden activation at (edge, unit). -/
theorem hidden_apply (x0 : (⟨S10000x256, .f32⟩ : BufTy).Contents (Elt Ideal)) (x1 : (⟨S2x320000, .i32⟩ : BufTy).Contents (Elt Ideal))
    (x2 : (⟨S512x512, .f32⟩ : BufTy).Contents (Elt Ideal)) (x3 : (⟨S512, .f32⟩ : BufTy).Contents (Elt Ideal)) (r : Fin 320000) (u : Fin 512) :
    val_main_v23 (F := Ideal) x0 x1 x2 x3 (ix2 r u)
      = Cert.EdgeMlp.hiddenRow (fun j => val_main_v18 (F := Ideal) x0 x1 (ix2 r j)) x2 (fun k => x3 (ix1 k)) u := by
  rw [val_main_v23_apply, val_main_v22_apply, val_main_v19_apply, val_main_v21_apply, val_main_v20_apply,
    val_main_call0_v0_apply, val_main_call0_cst_apply, bidx1]
  simp only [lidx19, ridx19, Ideal.addf_def, Ideal.maximumf_def, Ideal.ofBits_def, Ideal.ofBits_zero_f32]
  rfl

/-- The reference's result before the last reshape is the edge network of the gathered features. -/
theorem out_eq (x0 : (⟨S10000x256, .f32⟩ : BufTy).Contents (Elt Ideal)) (x1 : (⟨S2x320000, .i32⟩ : BufTy).Contents (Elt Ideal))
    (x2 : (⟨S512x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal)) :
    val_main_v27 (F := Ideal) x0 x1 x2 x3 x4 x5 = Cert.EdgeMlp.out (val_main_v18 (F := Ideal) x0 x1) x2 x3 x4 x5 := by
  funext i
  obtain ⟨r, q, rfl⟩ : ∃ (r : Fin 320000) (q : Fin 256), i = ix2 r q := ⟨i 0, i 1, eq_ix2 i⟩
  rw [Cert.EdgeMlp.out_ix2, val_main_v27_apply, val_main_v24_apply, val_main_v26_apply, val_main_v25_apply, bidx2, Ideal.addf_def]
  unfold Cert.EdgeMlp.outAt Cert.EdgeMlp.outRow
  refine congrArg₂ (· + ·) (Finset.sum_congr rfl fun k _ => ?_) rfl
  rw [lidx24, ridx24, hidden_apply]

end Cert.ReferenceIdeal.RefValue

end
-- ==== Proof.lean ====
/-
  An edge network — for each of 320000 edges the rows of its two end nodes gathered and laid side by side, then
  two dense layers with a rectifier between them — computed by a kernel 2000 edges at a time, against the same
  network written with whole-array operations.

  Over the extended reals both programs compute, at edge r and channel q,
      ∑ k, max (∑ j, ef[r, j] · W1[j, k] + b1[k], 0) · W2[k, q] + b2[q]
  where `ef` is the gathered edge features (`EdgeMlp.out`). The gather is the same sequence of host operations
  in both programs and is carried as one function of the node features and the edge list, never opened. The
  kernel's narrowings to a 16-bit format are the identity on extended reals, each of its products into a zero
  accumulator is the plain sum, and its 160 output blocks tile the result array (`KernelArray`, `KernelRun`);
  the reference's operations are read at an index one by one (`RefIsEdgeMlp`). No law of arithmetic is used
  beyond that reading, so the inputs' finiteness is not needed. The idealization rewrote nothing, so there is
  nothing to preserve.
-/
import proofs.«100078_j66692252172957_1_alg».proof.Defs
import proofs.«100078_j66692252172957_1_alg».proof.Proof.Gen.Kernel
import proofs.«100078_j66692252172957_1_alg».proof.Proof.Gen.Kernel.Skeleton
import proofs.«100078_j66692252172957_1_alg».proof.Proof.Gen.Kernel.Launch
import proofs.«100078_j66692252172957_1_alg».proof.Proof.Gen.Kernel.Points
import proofs.«100078_j66692252172957_1_alg».proof.Proof.Gen.Kernel.Frame
import proofs.«100078_j66692252172957_1_alg».proof.Proof.Gen.KernelIdeal
import proofs.«100078_j66692252172957_1_alg».proof.Proof.Gen.KernelIdeal.Skeleton
import proofs.«100078_j66692252172957_1_alg».proof.Proof.Gen.KernelIdeal.Launch
import proofs.«100078_j66692252172957_1_alg».proof.Proof.Gen.KernelIdeal.Points
import proofs.«100078_j66692252172957_1_alg».proof.Proof.Gen.KernelIdeal.Frame
import proofs.«100078_j66692252172957_1_alg».proof.Proof.Gen.ReferenceIdeal
import proofs.«100078_j66692252172957_1_alg».proof.Proof.Gen.Pre_finite_inputs
import proofs.«100078_j66692252172957_1_alg».proof.Proof.Gen.ReferenceIdeal.Run
import proofs.«100078_j66692252172957_1_alg».proof.Proof.Gen.ReferenceIdeal.Read
import proofs.«100078_j66692252172957_1_alg».proof.Proof.KernelRun
import proofs.«100078_j66692252172957_1_alg».proof.Proof.RefIsEdgeMlp
import Idealize.ShloMosaic.Adequacy
import Idealize.ShloMosaic.Init

noncomputable section

namespace Cert.Proof

open Idealize.ShloMosaic Idealize.SL.Sem

/-- Both programs gather the edge features by the same host operations: one function of the node features and
    the edge list. -/
theorem edgeFeatures_eq (x0 : (⟨Cert.KernelIdeal.S10000x256, .f32⟩ : BufTy).Contents (Elt Ideal))
    (x1 : (⟨Cert.KernelIdeal.S2x320000, .i32⟩ : BufTy).Contents (Elt Ideal)) :
    Cert.KernelIdeal.ArrayValue.edgeFeatures x0 x1 = Cert.ReferenceIdeal.Read.val_main_v18 (F := Ideal) x0 x1 := rfl

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the edge network of the gathered edge
    features, reshaped to [1, 320000, 256]. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v28_eq, a0, a1, a2, a3, a4, a5]
  unfold Cert.ReferenceIdeal.Read.val_main_v28
  rw [Cert.ReferenceIdeal.RefValue.out_eq, ← edgeFeatures_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
